-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x128 : Shape := ⟨2, ![1600000, 128]⟩
abbrev S1600000 : Shape := ⟨1, ![1600000]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1600000x128 .f32) (main_arg2 : IVec S1600000 32) (main_arg3 : IVec S1600000 32) (main_arg4 : FVec F S64x128 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000x128 : Shape := ⟨2, ![1600000, 128]⟩
abbrev S1600000 : Shape := ⟨1, ![1600000]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S128x64 : Shape := ⟨2, ![128, 64]⟩
abbrev S1x64 : Shape := ⟨2, ![1, 64]⟩
abbrev S8000x128 : Shape := ⟨2, ![8000, 128]⟩
abbrev S8000x64 : Shape := ⟨2, ![8000, 64]⟩

abbrev nBuf : Space → Nat
  | .hbm => 22
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1600000x128, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S128x64, .f32⟩
  | .hbm, ⟨16, _⟩ => ⟨S1x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .local _ .vmem, ⟨0, _⟩ => ⟨S8000x128, .f32⟩
  | .local _ .vmem, ⟨1, _⟩ => ⟨S8000x128, .f32⟩
  | .local _ .vmem, ⟨2, _⟩ => ⟨S8000x64, .f32⟩
  | .local _ .vmem, ⟨3, _⟩ => ⟨S8000x64, .f32⟩
  | .local _ .vmem, ⟨4, _⟩ => ⟨S128x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x128_S128x64_1_0 : S64x128.Transposes [1, 0] S128x64
  shapeCasts_S64_S1x64 : S64.ShapeCasts S1x64
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S8000x128_S128x64_S8000x64_1_0_0_1_n_n_wf : DotDims.WF S8000x128 S128x64 S8000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .f32 = 32 ∨ (Rect.block (s := S1600000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S1600000x64.size a
  hwx0_4 : ∀ i : grid0.Coords, EltTy.bits .f32 = 32 ∨ (Rect.block (s := S1600000x64) S8000x64.size (cc0_transform_4 i) (hinb0_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg1) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x128 : Shape := ⟨2, ![1600000, 128]⟩
abbrev S1600000 : Shape := ⟨1, ![1600000]⟩
abbrev S64x128 : Shape := ⟨2, ![64, 128]⟩
abbrev S64 : Shape := ⟨1, ![64]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩

abbrev nBuf : Space → Nat
  | .hbm => 24
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x128, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S64, .f32⟩
  | .hbm, ⟨6, _⟩ => ⟨S1600000x64, .f32⟩
  | .hbm, ⟨7, _⟩ => ⟨S1x64, .f32⟩
  | .hbm, ⟨8, _⟩ => ⟨S1600000x64, .f32⟩
  | .hbm, ⟨9, _⟩ => ⟨S1600000x64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S1600000x128_S64x128_S1600000x64_1_1_0_0_n_n_wf : DotDims.WF S1600000x128 S64x128 S1600000x64 [1] [1] [0] [0] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S1600000x128_S64x128_S1600000x64_1_1_0_0_n_n : DotDims S1600000x128 S64x128 S1600000x64 where
  lhsContracting := [1]
  rhsContracting := [1]
  lhsNonContracting := [0]
  rhsNonContracting := [0]
  lhsBatch := []
  rhsBatch := []
  wf := dot_S1600000x128_S64x128_S1600000x64_1_1_0_0_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Message.lean ====
/-
  The message an edge sends, as one function of four arrays.

  For an edge `e` and a feature `d` the message is the affine image of the edge's radial basis row, gated by the
  source node's feature:

      message e d = (∑ a, basis (e, a) * wt (a, d) + bias (0, d)) * feat (e, d).

  `basis` is the [1600000, 128] array of radial coefficients, `wt` the [128, 64] matrix of the affine map,
  `bias` its [1, 64] offset row and `feat` the [1600000, 64] array of source-node features, one row per edge.
  Everything is over the extended reals; the sum is the finite sum of the commutative monoid, so no order of
  summation is part of the definition.
-/
import Idealize.ShloMosaic.Lib.ValueIdx
import Idealize.ShloMosaic.PureOps.Ideal

noncomputable section

namespace Cert.Message

open Idealize.ShloMosaic Idealize.ShloMosaic.ValueIdx

/-- The message of edge `e` in feature `d`. -/
def messageAt (basis : (⟨2, ![1600000, 128]⟩ : Shape).Idx → EReal) (feat : (⟨2, ![1600000, 64]⟩ : Shape).Idx → EReal)
    (wt : (⟨2, ![128, 64]⟩ : Shape).Idx → EReal) (bias : (⟨2, ![1, 64]⟩ : Shape).Idx → EReal)
    (e : Fin 1600000) (d : Fin 64) : EReal :=
  (∑ a : Fin 128, basis (ix2 e a) * wt (ix2 a d) + bias (ix2 (0 : Fin 1) d)) * feat (ix2 e d)

/-- All messages, as one [1600000, 64] array. -/
def message (basis : (⟨2, ![1600000, 128]⟩ : Shape).Idx → EReal) (feat : (⟨2, ![1600000, 64]⟩ : Shape).Idx → EReal)
    (wt : (⟨2, ![128, 64]⟩ : Shape).Idx → EReal) (bias : (⟨2, ![1, 64]⟩ : Shape).Idx → EReal) :
    (⟨2, ![1600000, 64]⟩ : Shape).Idx → EReal :=
  fun i => messageAt basis feat wt bias (i 0) (i 1)

/-- The array read at an index given by its two coordinates. -/
theorem message_ix2 (basis : (⟨2, ![1600000, 128]⟩ : Shape).Idx → EReal) (feat : (⟨2, ![1600000, 64]⟩ : Shape).Idx → EReal)
    (wt : (⟨2, ![128, 64]⟩ : Shape).Idx → EReal) (bias : (⟨2, ![1, 64]⟩ : Shape).Idx → EReal)
    (e : Fin 1600000) (d : Fin 64) :
    message basis feat wt bias (ix2 e d) = messageAt basis feat wt bias e d := rfl

end Cert.Message

end
-- ==== Proof.BlockValue.lean ====
/-
  What the kernel body stores at one grid point, read at an entry.

  The body multiplies the point's [8000, 128] block of radial coefficients by the whole [128, 64] matrix into a zero
  accumulator, adds the [1, 64] offset row to every row, and multiplies entrywise by the point's [8000, 64] block of
  source features. At the ideal instance a change of float format is the identity and the matrix product is the
  plain finite sum, so at row `p` and column `q` the stored value is

      (∑ a, basis (p, a) * wt (a, q) + bias (0, q)) * feat (p, q).
-/
import proofs.«146403_j86861418594987_1_alg».proof.Proof.Gen.KernelIdeal.Skeleton
import proofs.«146403_j86861418594987_1_alg».proof.Proof.LibDot2
import proofs.«146403_j86861418594987_1_alg».proof.Proof.Message
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.TcCoe Idealize.ShloMosaic.ValueIdx

/-! ## The dimension numbers of the body's matrix product: which coordinate is which -/

/-- The left operand's row is the output's row. -/
theorem lhs_row (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
/-- The left operand's column is the contracted coordinate. -/
theorem lhs_col (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
/-- The right operand's row is the contracted coordinate. -/
theorem rhs_row (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
/-- The right operand's column is the output's column. -/
theorem rhs_col (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-! ## The stored value at an entry -/

/-- The offset row broadcast to every row of the block, read at `(p, q)`, is the row's entry `q`. -/
theorem bias_rows (x3 : Vec Ideal S1x64 .f32) (p : Fin 8000) (q : Fin 64) :
    broadcastTo S8000x64 x3 broadcasts_S1x64_S8000x64 (ix2 p q) = x3 (ix2 (0 : Fin 1) q) := by
  refine broadcastTo_apply x3 broadcasts_S1x64_S8000x64 (ix2 p q) (ix2 (0 : Fin 1) q) fun a => ?_
  match a with
  | ⟨0, _⟩ => show 0 = if (1 : Nat) = 1 then 0 else _; rw [if_pos rfl]
  | ⟨1, _⟩ => show q.val = if (64 : Nat) = 1 then 0 else q.val; rw [if_neg (by decide)]

/-- The body's stored value at row `p`, column `q`. -/
theorem stored_apply (x0 : Vec Ideal S8000x128 .f32) (x2 : Vec Ideal S128x64 .f32) (x3 : Vec Ideal S1x64 .f32)
    (x1 : Vec Ideal S8000x64 .f32) (p : Fin 8000) (q : Fin 64) :
    k0_pay1 (F := Ideal) x0 x2 x3 x1 (ix2 p q)
      = (∑ a : Fin 128, x0 (ix2 p a) * x2 (ix2 a q) + x3 (ix2 (0 : Fin 1) q)) * x1 (ix2 p q) := by
  unfold k0_pay1
  simp only [shapeCast_self]
  rw [mulf_apply, addf_apply, bias_rows]
  rw [Cert.Lib.Dot2.matmul_zero_ix2 dot_S8000x128_S128x64_S8000x64_1_0_0_1_n_n none rfl rfl lhs_row lhs_col rhs_row rhs_col]
  rfl

/-- The stored block is a block of the message array. If the point's two edge blocks are rows `r * 8000 + p` of two
    [1600000, ·] arrays `basis` and `feat`, then what the body stores at `(p, q)` is the message array of `basis`, `feat` and
    the body's matrix and offset row at `(r * 8000 + p, q)`. -/
theorem stored_is_message (x0 : Vec Ideal S8000x128 .f32) (x1 : Vec Ideal S8000x64 .f32) (x2 : Vec Ideal S128x64 .f32)
    (x3 : Vec Ideal S1x64 .f32) (basis : Vec Ideal S1600000x128 .f32) (feat : Vec Ideal S1600000x64 .f32) (r : Nat)
    (h0 : ∀ (x : S8000x128.Idx) (k : S1600000x128.Idx), (k 0).val = r * 8000 + (x 0).val → (k 1).val = (x 1).val → x0 x = basis k)
    (h1 : ∀ (x : S8000x64.Idx) (k : S1600000x64.Idx), (k 0).val = r * 8000 + (x 0).val → (k 1).val = (x 1).val → x1 x = feat k)
    (y : S8000x64.Idx) (i : S1600000x64.Idx) (hi0 : (i 0).val = r * 8000 + (y 0).val) (hi1 : (i 1).val = (y 1).val) :
    k0_pay1 (F := Ideal) x0 x2 x3 x1 y = Cert.Message.message basis feat x2 x3 i := by
  obtain ⟨p, q, rfl⟩ : ∃ (p : Fin 8000) (q : Fin 64), y = ix2 p q := ⟨y 0, y 1, eq_ix2 y⟩
  obtain ⟨e, d, rfl⟩ : ∃ (e : Fin 1600000) (d : Fin 64), i = ix2 e d := ⟨i 0, i 1, eq_ix2 i⟩
  have hd : d = q := Fin.ext hi1
  subst hd
  have he : e.val = r * 8000 + p.val := hi0
  rw [stored_apply, Cert.Message.message_ix2]
  unfold Cert.Message.messageAt
  rw [h1 (ix2 p d) (ix2 e d) he rfl]
  refine congrArg (fun s => (s + x3 (ix2 (0 : Fin 1) d)) * feat (ix2 e d)) ?_
  exact Finset.sum_congr rfl fun a _ => by rw [h0 (ix2 p a) (ix2 e a) he rfl]

end Cert.KernelIdeal.BlockValue

end
-- ==== Proof.EdgeArray.lean ====
/-
  The array of messages the region leaves.

  The grid has 200 points; point `t` reads rows `8000 t … 8000 t + 7999` of the radial coefficients and of the source
  features, the whole [128, 64] matrix and the whole offset row, and writes rows `8000 t … 8000 t + 7999` of the result.
  So what point `t` writes back is block `t` of ONE [1600000, 64] array, the message array of the four arrays the
  region finds; the 200 blocks tile the result (row `r` lies in block `r / 8000`), hence the result array ends
  holding the message array.
-/
import proofs.«146403_j86861418594987_1_alg».proof.Proof.Gen.KernelIdeal.Frame
import proofs.«146403_j86861418594987_1_alg».proof.Proof.BlockValue
import Idealize.ShloMosaic.Lib.Pipeline.Value

set_option maxRecDepth 16384

noncomputable section

namespace Cert.KernelIdeal.EdgeArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The four arrays as the region finds them, and their message array -/

/-- The radial coefficients, one row per edge. -/
abbrev basisArr (c : Dev nD) : Vec Ideal S1600000x128 .f32 := V m c main_arg1
/-- The source-node features, one row per edge. -/
abbrev featArr (c : Dev nD) : Vec Ideal S1600000x64 .f32 := V m c main_v6
/-- The matrix of the affine map. -/
abbrev wtArr (c : Dev nD) : Vec Ideal S128x64 .f32 := V m c main_v7
/-- Its offset row. -/
abbrev biasArr (c : Dev nD) : Vec Ideal S1x64 .f32 := V m c main_v8

/-- All messages. -/
abbrev messages (c : Dev nD) : Vec Ideal S1600000x64 .f32 :=
  Cert.Message.message (basisArr m c) (featArr m c) (wtArr m c) (biasArr m c)

/-! ## Which block each window reads or writes at a point -/

theorem zero_offsets : (![0, 0] : Fin 2 → Nat) = fun _ => 0 := funext fun a => by fin_cases a <;> rfl

/-- The edge windows (coefficients, features, result) are at block row `t`; the matrix and the offset row stay at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The coefficient block at point `t` is rows `8000 t + ·` of the coefficient array. -/
theorem basis_block (c : Dev nD) (t : Fin cfg0.N) (x : S8000x128.Idx) (k : S1600000x128.Idx)
    (hk0 : (k 0).val = t.val * 8000 + (x 0).val) (hk1 : (k 1).val = (x 1).val) :
    (iblk m c 0 t : Vec Ideal S8000x128 .f32) x = basisArr m c k := by
  obtain ⟨e0, e1, -⟩ := block_index t
  unfold iblk
  rw [View.read_apply]
  show V m c main_arg1 _ = V m c main_arg1 k
  refine congrArg (V m c main_arg1) (funext fun a => Fin.ext ?_)
  match a with
  | ⟨0, _⟩ => show win0_0.index t (0 : Fin 2) * 8000 + 1 * (x 0).val = (k 0).val; rw [e0, hk0]; omega
  | ⟨1, _⟩ => show win0_0.index t (1 : Fin 2) * 128 + 1 * (x 1).val = (k 1).val; rw [e1, hk1]; omega

/-- The feature block at point `t` is rows `8000 t + ·` of the feature array. -/
theorem feat_block (c : Dev nD) (t : Fin cfg0.N) (x : S8000x64.Idx) (k : S1600000x64.Idx)
    (hk0 : (k 0).val = t.val * 8000 + (x 0).val) (hk1 : (k 1).val = (x 1).val) :
    (iblk m c 1 t : Vec Ideal S8000x64 .f32) x = featArr m c k := by
  obtain ⟨-, -, e0, e1, -⟩ := block_index t
  unfold iblk
  rw [View.read_apply]
  show V m c main_v6 _ = V m c main_v6 k
  refine congrArg (V m c main_v6) (funext fun a => Fin.ext ?_)
  match a with
  | ⟨0, _⟩ => show win0_1.index t (0 : Fin 2) * 8000 + 1 * (x 0).val = (k 0).val; rw [e0, hk0]; omega
  | ⟨1, _⟩ => show win0_1.index t (1 : Fin 2) * 64 + 1 * (x 1).val = (k 1).val; rw [e1, hk1]; omega

/-- Every point's matrix block is the whole matrix. -/
theorem wt_block (c : Dev nD) (t : Fin cfg0.N) : (iblk m c 2 t : Vec Ideal S128x64 .f32) = wtArr m c := by
  obtain ⟨-, -, -, -, e0, e1, -⟩ := block_index t
  funext x
  unfold iblk
  rw [View.read_apply]
  show V m c main_v7 _ = V m c main_v7 x
  refine congrArg (V m c main_v7) (funext fun a => Fin.ext ?_)
  match a with
  | ⟨0, _⟩ => show win0_2.index t (0 : Fin 2) * 128 + 1 * (x 0).val = (x 0).val; rw [e0]; omega
  | ⟨1, _⟩ => show win0_2.index t (1 : Fin 2) * 64 + 1 * (x 1).val = (x 1).val; rw [e1]; omega

/-- Every point's offset block is the whole offset row. -/
theorem bias_block (c : Dev nD) (t : Fin cfg0.N) : (iblk m c 3 t : Vec Ideal S1x64 .f32) = biasArr m c := by
  obtain ⟨-, -, -, -, -, -, e0, e1, -⟩ := block_index t
  funext x
  unfold iblk
  rw [View.read_apply]
  show V m c main_v8 _ = V m c main_v8 x
  refine congrArg (V m c main_v8) (funext fun a => Fin.ext ?_)
  match a with
  | ⟨0, _⟩ => show win0_3.index t (0 : Fin 2) * 1 + 1 * (x 0).val = (x 0).val; rw [e0]; omega
  | ⟨1, _⟩ => show win0_3.index t (1 : Fin 2) * 64 + 1 * (x 1).val = (x 1).val; rw [e1]; omega

/-- Entry `j` of the result's block at point `t` is entry `(8000 t + j₀, j₁)` of the result array. -/
theorem out_index (t : Fin cfg0.N) (j : S8000x64.Idx) :
    ((((cfg0.win 4).blk t).view.emb j : S1600000x64.Idx) 0).val = t.val * 8000 + (j 0).val
    ∧ ((((cfg0.win 4).blk t).view.emb j : S1600000x64.Idx) 1).val = (j 1).val := by
  obtain ⟨-, -, -, -, -, -, -, -, e0, e1⟩ := block_index t
  constructor
  · show win0_4.index t (0 : Fin 2) * 8000 + 1 * (j 0).val = _; rw [e0]; omega
  · show win0_4.index t (1 : Fin 2) * 64 + 1 * (j 1).val = _; rw [e1]; omega

/-! ## What a point writes back, and the array after the last point -/

/-- What point `t` writes back is block `t` of the message array. -/
theorem flushed_eq (c : Dev nD) (t : Fin cfg0.N) :
    (dats m 0 c).flushed 4 t = ((cfg0.win 4).blk t).view.read (Elt Ideal) (messages m c) := by
  show (cfg0.win 4).cut (grid0.coords t) ((dats m 0 c).after 4 t) = _
  rw [after0_4]
  unfold out0_4
  rw [View.canon_unit_zero zero_offsets]
  simp only [View.ld_unit_zero (S := S8000x128) zero_offsets, View.ld_unit_zero (S := S8000x64) zero_offsets,
    View.ld_unit_zero (S := S128x64) zero_offsets, View.ld_unit_zero (S := S1x64) zero_offsets]
  rw [wt_block m c t, bias_block m c t]
  funext j
  show k0_pay1 (F := Ideal) (iblk m c 0 t) (wtArr m c) (biasArr m c) (iblk m c 1 t) j
    = messages m c (((cfg0.win 4).blk t).view.emb j)
  exact BlockValue.stored_is_message (iblk m c 0 t) (iblk m c 1 t) (wtArr m c) (biasArr m c) (basisArr m c) (featArr m c) t.val
    (fun x k h0 h1 => basis_block m c t x k h0 h1) (fun x k h0 h1 => feat_block m c t x k h0 h1)
    j (((cfg0.win 4).blk t).view.emb j) (out_index t j).1 (out_index t j).2

/-- An index of the result array is in point `t`'s block iff each coordinate is in the block's range on its axis. -/
theorem mem_block (t : Fin cfg0.N) (i : S1600000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole main_v9).slice (win0_4.rect t)).set ↔ _
  rw [View.set_slice_whole, Rect.mem_set_unit]
  exact Iff.rfl

/-- The blocks tile the result: row `r` is in the block of point `r / 8000`. -/
theorem covered (i : S1600000x64.Idx) :
    ∃ t : Fin cfg0.N, (cfg0.win 4).flush t = true ∧ i ∈ ((cfg0.win 4).blk t).view.set := by
  have hi0 : (i 0).val < 1600000 := (i 0).isLt
  have hi1 : (i 1).val < 64 := (i 1).isLt
  have hN : cfg0.N = 200 := N_0
  have ht : (i 0).val / 8000 < cfg0.N := by rw [hN]; omega
  obtain ⟨-, -, -, -, -, -, -, -, e0, e1⟩ := block_index ⟨(i 0).val / 8000, ht⟩
  refine ⟨⟨(i 0).val / 8000, ht⟩, flush0_4 _, ?_⟩
  rw [mem_block]
  intro a
  match a with
  | ⟨0, _⟩ =>
    show win0_4.index ⟨(i 0).val / 8000, ht⟩ (0 : Fin 2) * 8000 ≤ (i 0).val ∧ (i 0).val < win0_4.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_4.index ⟨(i 0).val / 8000, ht⟩ (1 : Fin 2) * 64 ≤ (i 1).val ∧ (i 1).val < win0_4.index ⟨(i 0).val / 8000, ht⟩ (1 : Fin 2) * 64 + 64
    rw [e1]; omega

/-- The result array after the last point is the message array. -/
theorem messages_array (c : Dev nD) : (dats m 0 c).arrAt 4 cfg0.N = messages m c :=
  (dats m 0 c).arrAt_eq_of_cover 4 (messages m c) (fun t _ => flushed_eq m c t) (covered)

end Cert.KernelIdeal.EdgeArray

end
-- ==== Proof.HostPrefix.lean ====
/-
  The three arrays the host lines before the region write.

  Before the region @main normalises the source indices (a negative index counts from the end: `src + 100000` where
  `src < 0`), gathers one row of the node features per edge at those indices, transposes the [64, 128] weight matrix to
  [128, 64], and reshapes the [64] bias to a [1, 64] row. Here each of those three buffers, as the region finds it, is
  named as that operation of @main's arguments.
-/
import proofs.«146403_j86861418594987_1_alg».proof.Proof.Gen.KernelIdeal.Frame
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The source features per edge: the rows of the node features at the normalised source indices. -/
theorem feat_eq (c : Dev nD) :
    V m c main_v6 = Host.gather gather_S100000x64_S1600000x1_S1600000x64_1_0_n_n_0_1_164 (m ((c.tc : Thread nD τ).loc main_arg0))
      (broadcastInDim S1600000x1 ![0] bcast_S1600000_S1600000x1_0
        (select (cmpi .slt (m ((c.tc : Thread nD τ).loc main_arg2)) (broadcastInDim S1600000 ![] bcast_S_S1600000 (constantI S_ 32 0#32)))
          (addi (m ((c.tc : Thread nD τ).loc main_arg2)) (broadcastInDim S1600000 ![] bcast_S_S1600000 (constantI S_ 32 100000#32)))
          (m ((c.tc : Thread nD τ).loc main_arg2)))) := by
  show StableHlo.after hostOps0 (fun b => m (c, b)) (Proc.devRef .tc main_v6) = _
  after_results

/-- The matrix of the affine map: the weight matrix transposed. -/
theorem wt_eq (c : Dev nD) :
    V m c main_v7 = transpose S128x64 [1, 0] (m ((c.tc : Thread nD τ).loc main_arg4)) transposes_S64x128_S128x64_1_0 := by
  show StableHlo.after hostOps0 (fun b => m (c, b)) (Proc.devRef .tc main_v7) = _
  after_results

/-- The offset row: the bias as a one-row matrix. -/
theorem bias_eq (c : Dev nD) :
    V m c main_v8 = shapeCast S1x64 (m ((c.tc : Thread nD τ).loc main_arg5)) shapeCasts_S64_S1x64 := by
  show StableHlo.after hostOps0 (fun b => m (c, b)) (Proc.devRef .tc main_v8) = _
  after_results
  rfl

end Cert.KernelIdeal.HostPrefix

end
-- ==== Proof.KernelRun.lean ====
/-
  The kernel program's run, with its result named.

  After the region @main scatters the messages onto the nodes: starting from the all-zero [100000, 64] array it adds
  message row `e` into the row the destination index of edge `e` names. The region's result array is the message
  array of the four arrays the region finds (the coefficients as launched, the gathered source features, the transposed
  weight matrix and the bias as a row), so the program's result is that scatter of that message array.
-/
import proofs.«146403_j86861418594987_1_alg».proof.Proof.Gen.KernelIdeal.Frame
import proofs.«146403_j86861418594987_1_alg».proof.Proof.EdgeArray
import proofs.«146403_j86861418594987_1_alg».proof.Proof.HostPrefix
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The sum of the message rows onto the destination nodes, from the all-zero array. -/
def aggregate (dst : (⟨S1600000, .i32⟩ : BufTy).Contents (Elt Ideal)) (msgs : (⟨S1600000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst) msgs

/-- What the lines after the region leave in the result buffer: the messages summed onto the destination nodes. -/
theorem result_eq (c : Dev nD) :
    Pipeline.afterTail₀ cfgs (dats m) 0 (V0 m) [hostOps1] c main_v12
      = aggregate (m ((c.tc : Thread nD τ).loc main_arg3)) (EdgeArray.messages m c) := by
  have hmsg : Pipeline.withArrays spec0 c (V0 m c) (fun w => (dats m 0 c).arrAt w cfg0.N) (Proc.devRef .tc main_v9)
      = EdgeArray.messages m c :=
    (Pipeline.withArrays_arr spec0 launch0.win.arr_inj c _ _ 4).trans (EdgeArray.messages_array m c)
  have hdst : Pipeline.withArrays spec0 c (V0 m c) (fun w => (dats m 0 c).arrAt w cfg0.N) (Proc.devRef .tc main_arg3)
      = m ((c.tc : Thread nD τ).loc main_arg3) :=
    (Pipeline.withArrays_of_ne spec0 c (V0 m c) _ main_arg3 (by decide)).trans (V_main_arg3 m c)
  unfold Pipeline.afterTail₀
  show StableHlo.after hostOps1 _ (Proc.devRef .tc main_v12) = _
  after_results
  rw [hmsg, hdst]
  rfl

/-- The message array over @main's arguments: the coefficients as launched, the node features gathered at the
    normalised source indices, the weight matrix transposed, the bias as a row. -/
theorem messages_eq (c : Dev nD) :
    EdgeArray.messages m c = Cert.Message.message (m ((c.tc : Thread nD τ).loc main_arg1))
      (Host.gather gather_S100000x64_S1600000x1_S1600000x64_1_0_n_n_0_1_164 (m ((c.tc : Thread nD τ).loc main_arg0))
        (broadcastInDim S1600000x1 ![0] bcast_S1600000_S1600000x1_0
          (select (cmpi .slt (m ((c.tc : Thread nD τ).loc main_arg2)) (broadcastInDim S1600000 ![] bcast_S_S1600000 (constantI S_ 32 0#32)))
            (addi (m ((c.tc : Thread nD τ).loc main_arg2)) (broadcastInDim S1600000 ![] bcast_S_S1600000 (constantI S_ 32 100000#32)))
            (m ((c.tc : Thread nD τ).loc main_arg2)))))
      (transpose S128x64 [1, 0] (m ((c.tc : Thread nD τ).loc main_arg4)) transposes_S64x128_S128x64_1_0)
      (shapeCast S1x64 (m ((c.tc : Thread nD τ).loc main_arg5)) shapeCasts_S64_S1x64) := by
  show Cert.Message.message (V m c main_arg1) (V m c main_v6) (V m c main_v7) (V m c main_v8) = _
  rw [HostPrefix.feat_eq m c, HostPrefix.wt_eq m c, HostPrefix.bias_eq m c, V_main_arg1 m c]

/-- Every weakly fair execution of the kernel program terminates, its result the messages summed onto the
    destination nodes, its arguments unchanged. -/
theorem run : θ_run defs (onTc (τ := τ) (main (F := Ideal))) ⟨m, fun _ => 0, ρ⟩ fun r => ∀ c : Dev nD,
      r.2.mem ((c.tc : Thread nD τ).loc main_v12) = aggregate (m ((c.tc : Thread nD τ).loc main_arg3)) (EdgeArray.messages m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v12 (Pipeline.mem_restRefs_of main_v12 (by decide) (by decide))).trans (result_eq m c),
       ((h c).2 main_arg0 (Pipeline.mem_restRefs_of main_arg0 (by decide) (by decide))).trans (W_main_arg0 m (dats m) c),
       ((h c).1 0).trans (((dats m 0 c).arrAt_in 0 rfl _).trans ((A_eq m c 0).trans (V_main_arg1 m c))),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c)⟩)
    (run_main m ρ)

end Cert.KernelIdeal.Run

end
-- ==== Proof.RefBridge.lean ====
/-
  The reference's product stage is the message array.

  The reference computes, per edge `e` and feature `d`, `feat (e, d) * (∑ k, basis (e, k) * w (d, k) + b d)`: the
  contraction runs over the second axis of BOTH operands (the weight matrix is [64, 128], used untransposed), the bias
  is broadcast along the edges, and the gathered source feature multiplies from the left. The message array is
  `(∑ a, basis (e, a) * wt (a, d) + bias (0, d)) * feat (e, d)`. With `wt` the transposed weight matrix
  (`wt (a, d) = w (d, a)`) and `bias` the bias as a one-row matrix (`bias (0, d) = b d`) the two are equal entry by
  entry: the sums agree term by term, and the product of two extended reals commutes. No finiteness is used.
-/
import proofs.«146403_j86861418594987_1_alg».proof.Proof.Gen.ReferenceIdeal.Read
import proofs.«146403_j86861418594987_1_alg».proof.Proof.Message
import Idealize.ShloMosaic.Lib.Pipeline.Value
import Idealize.ShloMosaic.Lib.ValueIdx

noncomputable section

namespace Cert.ReferenceIdeal.Bridge

open Cert.ReferenceIdeal Cert.ReferenceIdeal.Gen Cert.ReferenceIdeal.Read
open Idealize.ShloMosaic Idealize.ShloMosaic.TcCoe Idealize.ShloMosaic.ValueIdx

/-- The transposed weight matrix at `(a, d)` is the weight matrix at `(d, a)`. -/
theorem transposed_apply (w : FVec Ideal S64x128 .f32) (hT : S64x128.Transposes [1, 0] (⟨2, ![128, 64]⟩ : Shape))
    (a : Fin 128) (d : Fin 64) :
    transpose (⟨2, ![128, 64]⟩ : Shape) [1, 0] w hT (ix2 a d) = w (ix2 d a) :=
  transpose_apply [1, 0] w hT (ix2 a d) (ix2 d a) fun b => by
    match b with
    | ⟨0, _⟩ => rfl
    | ⟨1, _⟩ => rfl

/-- The bias as a one-row matrix, at `(0, d)`, is the bias at `d`. -/
theorem row_apply (b : FVec Ideal S64 .f32) (hC : S64.ShapeCasts (⟨2, ![1, 64]⟩ : Shape)) (d : Fin 64) :
    shapeCast (⟨2, ![1, 64]⟩ : Shape) b hC (ix2 (0 : Fin 1) d) = b (ix1 d) :=
  shapeCast_apply b hC (ix2 (0 : Fin 1) d) (ix1 d) (by
    rw [Shape.rowMajor_val_one, Shape.rowMajor_val_two]
    show d.val = 0 * 64 + d.val
    omega)

/-- The reference's product of a feature array with its affine stage is the message array of the coefficients, that
    feature array, the transposed weight matrix and the bias row. -/
theorem product_is_message (basis : FVec Ideal S1600000x128 .f32) (feat : FVec Ideal S1600000x64 .f32)
    (w : FVec Ideal S64x128 .f32) (b : FVec Ideal S64 .f32)
    (hT : S64x128.Transposes [1, 0] (⟨2, ![128, 64]⟩ : Shape)) (hC : S64.ShapeCasts (⟨2, ![1, 64]⟩ : Shape)) :
    mulf (F := Ideal) (s := S1600000x64) (φ := .f32) feat (val_main_v3 (F := Ideal) basis w b)
      = Cert.Message.message basis feat (transpose (⟨2, ![128, 64]⟩ : Shape) [1, 0] w hT)
          (shapeCast (⟨2, ![1, 64]⟩ : Shape) b hC) := by
  funext i
  obtain ⟨e, d, rfl⟩ : ∃ (e : Fin 1600000) (d : Fin 64), i = ix2 e d := ⟨i 0, i 1, eq_ix2 i⟩
  have hl : ∀ k : Fin 128, lidx_main_v0 (ix2 e d) k = ix2 e k := fun k => funext fun a => Fin.ext (by
    match a with
    | ⟨0, _⟩ => rfl
    | ⟨1, _⟩ => rfl)
  have hr : ∀ k : Fin 128, ridx_main_v0 (ix2 e d) k = ix2 d k := fun k => funext fun a => Fin.ext (by
    match a with
    | ⟨0, _⟩ => rfl
    | ⟨1, _⟩ => rfl)
  have hb : idx_main_v1 (idx_main_v2 (ix2 e d)) = ix1 d := funext fun a => Fin.ext (by
    match a with
    | ⟨0, _⟩ => rfl)
  rw [Cert.Message.message_ix2]
  unfold Cert.Message.messageAt
  rw [mulf_apply, val_main_v3_apply, val_main_v0_apply, val_main_v2_apply, val_main_v1_apply, hb, row_apply]
  have hsum : (∑ k : Fin 128, basis (lidx_main_v0 (ix2 e d) k) * w (ridx_main_v0 (ix2 e d) k))
      = ∑ a : Fin 128, basis (ix2 e a) * transpose (⟨2, ![128, 64]⟩ : Shape) [1, 0] w hT (ix2 a d) :=
    Finset.sum_congr rfl fun a _ => by rw [hl, hr, transposed_apply]
  rw [hsum]
  exact mul_comm (G := EReal) _ _

end Cert.ReferenceIdeal.Bridge

end
-- ==== Proof.Agreement.lean ====
/-
  The two programs compute one array.

  Both programs end with the same aggregation: from the all-zero [100000, 64] array, add message row `e` into the row the
  destination index of edge `e` names. The kernel program aggregates the message array of the coefficients, the
  node features gathered at the normalised source indices, the transposed weight matrix and the bias row; the reference
  aggregates the product of the same gathered features with its own affine stage, which is that message array entry by
  entry. So, read over one launch memory, the reference's result is the kernel program's.
-/
import proofs.«146403_j86861418594987_1_alg».proof.Proof.KernelRun
import proofs.«146403_j86861418594987_1_alg».proof.Proof.RefBridge

noncomputable section

namespace Cert.Agreement

open Idealize.ShloMosaic Idealize.ShloMosaic.TcCoe Idealize.SL.Sem

/-- The reference's last stage, at the kernel program's launch memory, is the kernel program's result. -/
theorem result_agrees
    (m : (ℓ : Loc Cert.KernelIdeal.nD Cert.KernelIdeal.τ Cert.KernelIdeal.sig) → Buf (Elt Ideal) ℓ) (c : Dev Cert.KernelIdeal.nD) :
    Cert.ReferenceIdeal.Read.val_main_v14 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Run.aggregate (m ((c.tc : Thread Cert.KernelIdeal.nD Cert.KernelIdeal.τ).loc Cert.KernelIdeal.main_arg3))
          (Cert.KernelIdeal.EdgeArray.messages m c) := by
  rw [Cert.KernelIdeal.Run.messages_eq m c]
  exact congrArg (Cert.KernelIdeal.Run.aggregate (m ((c.tc : Thread Cert.KernelIdeal.nD Cert.KernelIdeal.τ).loc Cert.KernelIdeal.main_arg3)))
    (Cert.ReferenceIdeal.Bridge.product_is_message
      (m ((c.tc : Thread Cert.KernelIdeal.nD Cert.KernelIdeal.τ).loc Cert.KernelIdeal.main_arg1)) _
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) _ _)

end Cert.Agreement

end
-- ==== Proof.lean ====
/-
  The certificate of the edge-message kernel against its reference.

  The kernel program gathers one row of node features per edge, forms per edge the affine image of the edge's radial
  coefficients (a [8000, 128] by [128, 64] matrix product per grid point, plus an offset row), multiplies it entrywise
  by the gathered features, and sums the resulting message rows onto the destination nodes. The reference does the same
  with one [1600000, 128] by [64, 128] contraction over the second axis of both operands, the bias broadcast along the
  edges and the product taken in the other order.

  Over the extended reals the two results are one array: the contraction sums agree term by term (the kernel's matrix is
  the reference's transposed), the offset row is the bias, and the product commutes; the gather before and the
  aggregation after are the same operations of the same arguments in both programs. No finiteness of the inputs is
  used, so the precondition is never opened.

  The frames of the two kernel programs are the generated frame certificates; the reference's frame is its generated
  run with the result dropped; no operation of the kernel program was rewritten on the way to its idealized form, so `preserves` is trivial.
-/
import proofs.«146403_j86861418594987_1_alg».proof.Defs
import proofs.«146403_j86861418594987_1_alg».proof.Proof.Gen.Kernel
import proofs.«146403_j86861418594987_1_alg».proof.Proof.Gen.Kernel.Skeleton
import proofs.«146403_j86861418594987_1_alg».proof.Proof.Gen.Kernel.Launch
import proofs.«146403_j86861418594987_1_alg».proof.Proof.Gen.Kernel.Points
import proofs.«146403_j86861418594987_1_alg».proof.Proof.Gen.Kernel.Frame
import proofs.«146403_j86861418594987_1_alg».proof.Proof.Gen.KernelIdeal
import proofs.«146403_j86861418594987_1_alg».proof.Proof.Gen.KernelIdeal.Skeleton
import proofs.«146403_j86861418594987_1_alg».proof.Proof.Gen.KernelIdeal.Launch
import proofs.«146403_j86861418594987_1_alg».proof.Proof.Gen.KernelIdeal.Points
import proofs.«146403_j86861418594987_1_alg».proof.Proof.Gen.KernelIdeal.Frame
import proofs.«146403_j86861418594987_1_alg».proof.Proof.Gen.ReferenceIdeal
import proofs.«146403_j86861418594987_1_alg».proof.Proof.Gen.Pre_finite_inputs
import proofs.«146403_j86861418594987_1_alg».proof.Proof.Gen.ReferenceIdeal.Run
import proofs.«146403_j86861418594987_1_alg».proof.Proof.Gen.ReferenceIdeal.Read
import proofs.«146403_j86861418594987_1_alg».proof.Proof.KernelRun
import proofs.«146403_j86861418594987_1_alg».proof.Proof.Agreement
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the messages summed onto the destination nodes:
    the kernel program by its run, the reference by its run read as the same aggregation of the same message array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Run.aggregate (m ((c.tc : Thread Cert.KernelIdeal.nD Cert.KernelIdeal.τ).loc Cert.KernelIdeal.main_arg3))
      (Cert.KernelIdeal.EdgeArray.messages m c), Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2.1, (hagree c).2.2.2.1,
    (hagree c).2.2.2.2.1, (hagree c).2.2.2.2.2]
  exact Cert.Agreement.result_agrees m c

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
